-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S32x1024x1024 : Shape := ⟨3, ![32, 1024, 1024]⟩
abbrev S256x256 : Shape := ⟨2, ![256, 256]⟩
abbrev S256 : Shape := ⟨1, ![256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32x1024x256 .f32) (main_arg1 : FVec F S32x1024x1024 .f32) (main_arg2 : FVec F S256x256 .f32) (main_arg3 : FVec F S256 .f32) (main_arg4 : FVec F S256x256 .f32) (main_arg5 : FVec F S256 .f32) (main_arg6 : FVec F S256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S32x1024x256 : Shape := ⟨3, ![32, 1024, 256]⟩
abbrev S32x1024x1024 : Shape := ⟨3, ![32, 1024, 1024]⟩
abbrev S256x256 : Shape := ⟨2, ![256, 256]⟩
abbrev S256 : Shape := ⟨1, ![256]⟩
abbrev S1x256 : Shape := ⟨2, ![1, 256]⟩
abbrev S1x1024x256 : Shape := ⟨3, ![1, 1024, 256]⟩
abbrev S1x1024x1024 : Shape := ⟨3, ![1, 1024, 1024]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 11
  | .vmem => 11
  | .smem => 0
  | _ => 0

abbrev bufTy : (tb : Table) → Fin (tcTables nBuf tb) → BufTy
  | .hbm, ⟨0, _⟩ => ⟨S32x1024x256, .f32⟩
  | .hbm, ⟨1, _⟩ => ⟨S32x1024x1024, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S32x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1024, .f32⟩
  | .local _ .vmem, ⟨3, _⟩ => ⟨S1x1024x1024, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x1024x256, .f32⟩
  | .local _ .vmem, ⟨10, _⟩ => ⟨S1x1024x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S256x256_S256x256_0_0 : ∀ a, (![0, 0] : Fin 2 → Nat) a + S256x256.size a ≤ S256x256.size a
  h_S256x256 : 0 < S256x256.numel
  shapeCasts_S1024x256_S1x1024x256 : S1024x256.ShapeCasts S1x1024x256
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S32x1024x256.size a
  hwx0_7 : ∀ i : grid0.Coords, EltTy.bits .f32 = 32 ∨ (Rect.block (s := S32x1024x256) S1x1024x256.size (cc0_transform_7 i) (hinb0_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024x1024 : Shape := ⟨3, ![32, 1024, 1024]⟩
abbrev S256x256 : Shape := ⟨2, ![256, 256]⟩
abbrev S256 : Shape := ⟨1, ![256]⟩
abbrev S_ : Shape := ⟨0, ![]⟩
abbrev S32x1024 : Shape := ⟨2, ![32, 1024]⟩
abbrev S32x1024x1 : Shape := ⟨3, ![32, 1024, 1]⟩
abbrev S1x1x256 : Shape := ⟨3, ![1, 1, 256]⟩

abbrev nBuf : Space → Nat
  | .hbm => 47
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x1024, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S32x1024, .f32⟩
  | .hbm, ⟨9, _⟩ => ⟨S32x1024x1, .f32⟩
  | .hbm, ⟨10, _⟩ => ⟨S_, .f32⟩
  | .hbm, ⟨11, _⟩ => ⟨S32x1024x1, .f32⟩
  | .hbm, ⟨12, _⟩ => ⟨S32x1024x1, .f32⟩
  | .hbm, ⟨13, _⟩ => ⟨S32x1024x256, .f32⟩
  | .hbm, ⟨14, _⟩ => ⟨S32x1024x256, .f32⟩
  | .hbm, ⟨15, _⟩ => ⟨S32x1024x256, .f32⟩
  | .hbm, ⟨16, _⟩ => ⟨S_, .f32⟩
  | .hbm, ⟨17, _⟩ => ⟨S32x1024, .f32⟩
  | .hbm, ⟨18, _⟩ => ⟨S32x1024x1, .f32⟩
  | .hbm, ⟨19, _⟩ => ⟨S_, .f32⟩
  | .hbm, ⟨20, _⟩ => ⟨S32x1024x1, .f32⟩
  | .hbm, ⟨21, _⟩ => ⟨S32x1024x1, .f32⟩
  | .hbm, ⟨22, _⟩ => ⟨S32x1024x256, .f32⟩
  | .hbm, ⟨23, _⟩ => ⟨S32x1024x256, .f32⟩
  | .hbm, ⟨24, _⟩ => ⟨S_, .f32⟩
  | .hbm, ⟨25, _⟩ => ⟨S32x1024x1, .f32⟩
  | .hbm, ⟨26, _⟩ => ⟨S32x1024x1, .f32⟩
  | .hbm, ⟨27, _⟩ => ⟨S32x1024x1, .f32⟩
  | .hbm, ⟨28, _⟩ => ⟨S32x1024x256, .f32⟩
  | .hbm, ⟨29, _⟩ => ⟨S32x1024x256, .f32⟩
  | .hbm, ⟨30, _⟩ => ⟨S1x1x256, .f32⟩
  | .hbm, ⟨31, _⟩ => ⟨S32x1024x256, .f32⟩
  | .hbm, ⟨32, _⟩ => ⟨S32x1024x256, .f32⟩
  | .hbm, ⟨33, _⟩ => ⟨S1x1x256, .f32⟩
  | .hbm, ⟨34, _⟩ => ⟨S32x1024x256, .f32⟩
  | .hbm, ⟨35, _⟩ => ⟨S32x1024x256, .f32⟩
  | .hbm, ⟨36, _⟩ => ⟨S32x1024x256, .f32⟩
  | .hbm, ⟨37, _⟩ => ⟨S32x1024x256, .f32⟩
  | .hbm, ⟨38, _⟩ => ⟨S1x1x256, .f32⟩
  | .hbm, ⟨39, _⟩ => ⟨S32x1024x256, .f32⟩
  | .hbm, ⟨40, _⟩ => ⟨S32x1024x256, .f32⟩
  | .hbm, ⟨41, _⟩ => ⟨S32x1024x256, .f32⟩
  | .hbm, ⟨42, _⟩ => ⟨S32x1024x256, .f32⟩
  | .hbm, ⟨43, _⟩ => ⟨S_, .f32⟩
  | .hbm, ⟨44, _⟩ => ⟨S32x1024x256, .f32⟩
  | .hbm, ⟨45, _⟩ => ⟨S32x1024x256, .f32⟩
  | .hbm, ⟨46, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  reducesTo_S32x1024x256_S32x1024_d2 : S32x1024x256.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  bcast_S_S32x1024x256 : S_.BroadcastsInDim S32x1024x256 (![] : Fin 0 → Fin S32x1024x256.rank)
  dot_S32x1024x1024_S32x1024x256_S32x1024x256_2_1_1_2_0_0_wf : DotDims.WF S32x1024x1024 S32x1024x256 S32x1024x256 [2] [1] [1] [2] [0] [0]
  dot_S32x1024x256_S256x256_S32x1024x256_2_0_01_1_n_n_wf : DotDims.WF S32x1024x256 S256x256 S32x1024x256 [2] [0] [0, 1] [1] [] []

variable [Facts₀]

def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf
def dot_S32x1024x256_S256x256_S32x1024x256_2_0_01_1_n_n : DotDims S32x1024x256 S256x256 S32x1024x256 where
  lhsContracting := [2]
  rhsContracting := [0]
  lhsNonContracting := [0, 1]
  rhsNonContracting := [1]
  lhsBatch := []
  rhsBatch := []
  wf := dot_S32x1024x256_S256x256_S32x1024x256_2_0_01_1_n_n_wf

class Facts : Prop extends Facts₀ where

variable [Facts]
-- ==== Proof.Spec.lean ====
/-
  The mathematics both programs compute, written once, index by index, over the extended reals.

  For a batch item `b`, a node (row) `r` and a feature (column) `c`, with `x : [32,1024,256]`,
  `adj : [32,1024,1024]`, `W_rel, W_root : [256,256]`, `b_rel, γ, β : [256]`:

    mean b r     = (∑ c, x b r c) / 256
    cent b r c   = x b r c − mean b r
    var b r      = (∑ c, (cent b r c)²) / 256
    normed b r c = cent b r c · rsqrt (var b r + ε) · γ c + β c              (layer norm)
    agg b i c    = ∑ j, adj b i j · normed b j c                              (dense message passing)
    conv b k o   = (∑ h, agg b k h · W_rel h o) + b_rel o + ∑ h, normed b k h · W_root h o
    out b k o    = x b k o + max (conv b k o) 0                               (ReLU, residual)

  The two float literals (256 and ε) are kept as the words both programs print; they are never
  evaluated, because both sides carry the same word. Only the zero word is read as the real 0.
  No law used anywhere below needs the inputs finite: the two programs apply the same operations in
  the same order to the same entries, and differ only in how the arrays are cut into blocks, how
  unit axes are added and dropped, and in which primitive spells a sum of products.
-/
import Idealize.ShloMosaic.PureOps.Ideal
import Idealize.ShloMosaic.PureOps.Ideal.Laws
import Idealize.ShloMosaic.Lib.ValueIdx

noncomputable section

namespace Cert.GnnSpec

open Idealize.ShloMosaic Idealize.ShloMosaic.ValueIdx

abbrev SX : Shape := ⟨3, ![32, 1024, 256]⟩
abbrev SA : Shape := ⟨3, ![32, 1024, 1024]⟩
abbrev SW : Shape := ⟨2, ![256, 256]⟩
abbrev SV : Shape := ⟨1, ![256]⟩

/-- The divisor of both means: the word of 256.0. -/
abbrev w256 : EReal := Ideal.ofBits .f32 0x43800000#32
/-- The layer norm's ε: the word nearest 1e-5. -/
abbrev wEps : EReal := Ideal.ofBits .f32 0x3727C5AC#32

variable (x : SX.Idx → EReal) (adj : SA.Idx → EReal) (wrel : SW.Idx → EReal) (brel : SV.Idx → EReal)
  (wroot : SW.Idx → EReal) (gam bet : SV.Idx → EReal)

/-- A row's mean over its 256 features. -/
def mean (b : Fin 32) (r : Fin 1024) : EReal := Ideal.div (∑ c : Fin 256, x (ix3 b r c)) w256

/-- The row, centred. -/
def cent (b : Fin 32) (r : Fin 1024) (c : Fin 256) : EReal := x (ix3 b r c) - mean x b r

/-- A row's variance (the mean of the centred squares). -/
def var (b : Fin 32) (r : Fin 1024) : EReal := Ideal.div (∑ c : Fin 256, cent x b r c * cent x b r c) w256

/-- The layer norm of a row, scaled and shifted feature by feature. -/
def normed (b : Fin 32) (r : Fin 1024) (c : Fin 256) : EReal :=
  cent x b r c * Ideal.rsqrt (var x b r + wEps) * gam (ix1 c) + bet (ix1 c)

/-- Message passing over the dense adjacency of one batch item. -/
def agg (b : Fin 32) (i : Fin 1024) (c : Fin 256) : EReal :=
  ∑ j : Fin 1024, adj (ix3 b i j) * normed x gam bet b j c

/-- The dense graph convolution: the aggregated features through `W_rel`, the bias, the node's own
    features through `W_root`. -/
def conv (b : Fin 32) (k : Fin 1024) (o : Fin 256) : EReal :=
  (∑ h : Fin 256, agg x adj gam bet b k h * wrel (ix2 h o)) + brel (ix1 o)
    + ∑ h : Fin 256, normed x gam bet b k h * wroot (ix2 h o)

/-- The block's result: the input plus the rectified convolution. -/
def out (i : SX.Idx) : EReal :=
  x i + max (conv x adj wrel brel wroot gam bet (i 0) (i 1) (i 2)) 0

theorem out_ix3 (b : Fin 32) (k : Fin 1024) (o : Fin 256) :
    out x adj wrel brel wroot gam bet (ix3 b k o)
      = x (ix3 b k o) + max (conv x adj wrel brel wroot gam bet b k o) 0 := rfl

end Cert.GnnSpec

end
-- ==== Proof.LibColumn.lean ====
/-
  Two layout facts a keep-dims reduction needs, read at coordinates: a length-`a` vector cast to a
  column `[a, 1]` holds, at `(i, u)`, the vector's entry `i`; and a column `[a, 1]` broadcast along
  the second axis to `[a, b]` holds, at `(p, c)`, the column's entry `p`.
-/
import Idealize.ShloMosaic.Lib.ValueLayout

namespace Cert.GnnLayout

open Idealize.ShloMosaic Idealize.ShloMosaic.ValueIdx

variable {α : Type}

/-- An `[a]` array cast to a column `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.GnnLayout
-- ==== Proof.KernelBody.lean ====
/-
  The kernel's body on one batch item's blocks, read at coordinates.

  The body loads the item's feature block `[1,1024,256]` and adjacency block `[1,1024,1024]`, the two
  weight matrices and the three `[1,256]` rows (bias, scale, shift), and stores one `[1,1024,256]`
  block. Read at row `r` and feature `o` the stored value is the specification's `out` at `(b, r, o)`,
  once each loaded block is known to be the item-`b` slice of its array: a lane reduction with a zero
  accumulator is the row's sum, a column `[1024,1]` broadcast back puts the row's statistic on every
  feature, the matrix unit's product into a zero accumulator is the plain sum of products, and the
  narrowings to bf16 change nothing over the extended reals.
-/
import proofs.«162421_j82755429859956_1_alg».proof.Proof.Gen.KernelIdeal.Skeleton
import proofs.«162421_j82755429859956_1_alg».proof.Proof.Spec
import proofs.«162421_j82755429859956_1_alg».proof.Proof.LibColumn
import Idealize.ShloMosaic.Lib.ValueLayout
import Idealize.ShloMosaic.PureOps.Ideal.Laws

noncomputable section

namespace Cert.GnnKernel

open Cert.KernelIdeal Cert.KernelIdeal.Gen Cert.GnnSpec Cert.GnnLayout
open Idealize.ShloMosaic Idealize.ShloMosaic.ValueIdx

/-! ## The two contractions as plain sums -/

theorem lhsA_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhsA_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhsA_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhsA_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The adjacency product into a zero accumulator: row `i` of the left times column `c` of the right. -/
theorem matmulA_apply (Lm : FVec Ideal S1024x1024 .bf16) (Rm : FVec Ideal S1024x256 .bf16) (i : Fin 1024) (c : Fin 256) :
    matmul dot_S1024x1024_S1024x256_S1024x256_1_0_0_1_n_n none Lm Rm (constant (F := Ideal) S1024x256 .f32 0x00000000#32) (ix2 i c)
      = ∑ j : Fin 1024, Lm (ix2 i j) * Rm (ix2 j c) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 i c) ((ValueIdx.contrEquiv1 dot_S1024x1024_S1024x256_S1024x256_1_0_0_1_n_n 1024 rfl rfl).symm k) = ix2 i k := funext fun a => Fin.ext (by
    match a with
    | ⟨0, _⟩ => exact lhsA_0 _ _
    | ⟨1, _⟩ => exact (lhsA_1 _ _).trans hk)
  have er : dot_S1024x1024_S1024x256_S1024x256_1_0_0_1_n_n.rhsIdx (ix2 i c) ((ValueIdx.contrEquiv1 dot_S1024x1024_S1024x256_S1024x256_1_0_0_1_n_n 1024 rfl rfl).symm k) = ix2 k c := funext fun a => Fin.ext (by
    match a with
    | ⟨0, _⟩ => exact (rhsA_0 _ _).trans hk
    | ⟨1, _⟩ => exact rhsA_1 _ _)
  rw [el, er]

theorem lhsW_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsW_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsW_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsW_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A feature product into a zero accumulator: row `r` of the left times column `o` of the weights. -/
theorem matmulW_apply (Lm : FVec Ideal S1024x256 .bf16) (Rm : FVec Ideal S256x256 .bf16) (r : Fin 1024) (o : Fin 256) :
    matmul dot_S1024x256_S256x256_S1024x256_1_0_0_1_n_n none Lm Rm (constant (F := Ideal) S1024x256 .f32 0x00000000#32) (ix2 r o)
      = ∑ h : Fin 256, Lm (ix2 r h) * Rm (ix2 h o) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r o) ((ValueIdx.contrEquiv1 dot_S1024x256_S256x256_S1024x256_1_0_0_1_n_n 256 rfl rfl).symm k) = ix2 r k := funext fun a => Fin.ext (by
    match a with
    | ⟨0, _⟩ => exact lhsW_0 _ _
    | ⟨1, _⟩ => exact (lhsW_1 _ _).trans hk)
  have er : dot_S1024x256_S256x256_S1024x256_1_0_0_1_n_n.rhsIdx (ix2 r o) ((ValueIdx.contrEquiv1 dot_S1024x256_S256x256_S1024x256_1_0_0_1_n_n 256 rfl rfl).symm k) = ix2 k o := funext fun a => Fin.ext (by
    match a with
    | ⟨0, _⟩ => exact (rhsW_0 _ _).trans hk
    | ⟨1, _⟩ => exact rhsW_1 _ _)
  rw [el, er]

/-! ## The layer norm of a block -/

/-- A block's row means, as the column the body keeps them in. -/
def rowMean (v : FVec Ideal S1024x256 .f32) : FVec Ideal S1024x1 .f32 :=
  divf (shapeCast S1024x1 (multiReduction .add [1] S1024 v 0x00000000#32 reduces_S1024x256_S1024 (.inl rfl) rfl) shapeCasts_S1024_S1024x1)
    (broadcast S1024x1 (Scalar.ofBits (F := Ideal) .f32 0x43800000#32))

/-- The block with each row's mean taken off. -/
def centredBlk (v : FVec Ideal S1024x256 .f32) : FVec Ideal S1024x256 .f32 :=
  subf v (broadcastTo S1024x256 (rowMean v) broadcasts_S1024x1_S1024x256)

/-- The reciprocal standard deviation of each row, as a column. -/
def invStd (v : FVec Ideal S1024x256 .f32) : FVec Ideal S1024x1 .f32 :=
  rsqrt (addf (rowMean (mulf (centredBlk v) (centredBlk v))) (broadcast S1024x1 (Scalar.ofBits (F := Ideal) .f32 0x3727C5AC#32)))

/-- The layer norm of the block, scaled by the row `g` and shifted by the row `bt`. -/
def normedBlk (v : FVec Ideal S1024x256 .f32) (g bt : Vec Ideal S1x256 .f32) : FVec Ideal S1024x256 .f32 :=
  addf (mulf (mulf (centredBlk v) (broadcastTo S1024x256 (invStd v) broadcasts_S1024x1_S1024x256))
      (broadcastTo S1024x256 (shapeCast S1x256 g shapeCasts_S1x256_S1x256) broadcasts_S1x256_S1024x256))
    (broadcastTo S1024x256 (shapeCast S1x256 bt shapeCasts_S1x256_S1x256) broadcasts_S1x256_S1024x256)

/-- The body's narrowed layer-norm value is `normedBlk` of the loaded block without its unit axis. -/
theorem pay3_eq (v0 : Vec Ideal S1x1024x256 .f32) (g bt : Vec Ideal S1x256 .f32) :
    k0_pay3 v0 g bt = truncf .bf16 (normedBlk (k0_pay2 v0) g bt) bitsLt_bf16_f32 := rfl

/-- A lane reduction with a zero accumulator, kept as a column: the row's sum. -/
theorem rowSum_col (v : FVec Ideal S1024x256 .f32) (r : Fin 1024) (u : Fin 1) :
    shapeCast S1024x1 (multiReduction .add [1] S1024 v 0x00000000#32 reduces_S1024x256_S1024 (.inl rfl) rfl) shapeCasts_S1024_S1024x1 (ix2 r u)
      = ∑ c : Fin 256, v (ix2 r c) := by
  refine (shapeCast_a_a1_apply _ shapeCasts_S1024_S1024x1 r u).trans ?_
  refine (Ideal.multiReduction_add_single v 0x00000000#32 reduces_S1024x256_S1024 (.inl rfl) rfl (ix1 r)).trans ?_
  refine Finset.sum_congr rfl fun c _ => congrArg v ?_
  funext a; match a with | ⟨0, _⟩ => rfl | ⟨1, _⟩ => rfl

/-- A row's mean from the row's entries. -/
theorem rowMean_apply (v : FVec Ideal S1024x256 .f32) (f : Fin 256 → EReal) (r : Fin 1024) (hv : ∀ c, v (ix2 r c) = f c) (u : Fin 1) :
    rowMean v (ix2 r u) = Ideal.div (∑ c : Fin 256, f c) w256 := by
  show Ideal.div (shapeCast S1024x1 (multiReduction .add [1] S1024 v 0x00000000#32 reduces_S1024x256_S1024 (.inl rfl) rfl) shapeCasts_S1024_S1024x1 (ix2 r u)) w256 = _
  rw [rowSum_col]
  exact congrArg (fun s => Ideal.div s w256) (Finset.sum_congr rfl fun c _ => hv c)

section Block

variable (X : SX.Idx → EReal) (gam bet : SV.Idx → EReal) (b : Fin 32)
variable (v : FVec Ideal S1024x256 .f32) (g bt : Vec Ideal S1x256 .f32)

theorem centredBlk_apply (hv : ∀ r c, v (ix2 r c) = X (ix3 b r c)) (r : Fin 1024) (c : Fin 256) :
    centredBlk v (ix2 r c) = cent X b r c := by
  show v (ix2 r c) - broadcastTo S1024x256 (rowMean v) broadcasts_S1024x1_S1024x256 (ix2 r c) = _
  rw [broadcastTo_a1_ab_apply, rowMean_apply v (fun c => X (ix3 b r c)) r (hv r), hv]
  rfl

theorem invStd_apply (hv : ∀ r c, v (ix2 r c) = X (ix3 b r c)) (r : Fin 1024) (u : Fin 1) :
    invStd v (ix2 r u) = Ideal.rsqrt (var X b r + wEps) := by
  show Ideal.rsqrt (rowMean (mulf (centredBlk v) (centredBlk v)) (ix2 r u) + wEps) = _
  rw [rowMean_apply (mulf (centredBlk v) (centredBlk v)) (fun c => cent X b r c * cent X b r c) r
    (fun c => by show centredBlk v (ix2 r c) * centredBlk v (ix2 r c) = _; rw [centredBlk_apply X b v hv])]
  rfl

theorem normedBlk_apply (hv : ∀ r c, v (ix2 r c) = X (ix3 b r c)) (hg : ∀ c, g (ix2 (0 : Fin 1) c) = gam (ix1 c))
    (hb : ∀ c, bt (ix2 (0 : Fin 1) c) = bet (ix1 c)) (r : Fin 1024) (c : Fin 256) :
    normedBlk v g bt (ix2 r c) = normed X gam bet b r c := by
  show centredBlk v (ix2 r c) * broadcastTo S1024x256 (invStd v) broadcasts_S1024x1_S1024x256 (ix2 r c)
      * broadcastTo S1024x256 (shapeCast S1x256 g shapeCasts_S1x256_S1x256) broadcasts_S1x256_S1024x256 (ix2 r c)
      + broadcastTo S1024x256 (shapeCast S1x256 bt shapeCasts_S1x256_S1x256) broadcasts_S1x256_S1024x256 (ix2 r c) = _
  rw [broadcastTo_a1_ab_apply, broadcastTo_1b_ab_apply, broadcastTo_1b_ab_apply, shapeCast_self, shapeCast_self,
    centredBlk_apply X b v hv, invStd_apply X b v hv, hg, hb]
  rfl

end Block

/-! ## The stored block -/

section Stored

variable (X : SX.Idx → EReal) (adj : SA.Idx → EReal) (wrel : SW.Idx → EReal) (brel : SV.Idx → EReal)
  (wroot : SW.Idx → EReal) (gam bet : SV.Idx → EReal) (b : Fin 32)
variable (xb : Vec Ideal S1x1024x256 .f32) (ab : Vec Ideal S1x1024x1024 .f32) (wr : Vec Ideal S256x256 .f32)
  (brb : Vec Ideal S1x256 .f32) (wo : Vec Ideal S256x256 .f32) (g bt : Vec Ideal S1x256 .f32)

/-- The narrowed layer-norm value of item `b`'s block is the specification's `normed`. -/
theorem pay3_apply (hx : ∀ r c, xb (ix3 (0 : Fin 1) r c) = X (ix3 b r c)) (hg : ∀ c, g (ix2 (0 : Fin 1) c) = gam (ix1 c))
    (hb : ∀ c, bt (ix2 (0 : Fin 1) c) = bet (ix1 c)) (r : Fin 1024) (c : Fin 256) :
    k0_pay3 xb g bt (ix2 r c) = normed X gam bet b r c := by
  rw [pay3_eq]
  show normedBlk (k0_pay2 xb) g bt (ix2 r c) = _
  exact normedBlk_apply X gam bet b (k0_pay2 xb) g bt
    (fun r c => (shapeCast_1ab_ab_apply xb shapeCasts_S1x1024x256_S1024x256 r c).trans (hx r c)) hg hb r c

/-- The aggregated features through `W_rel`. -/
theorem pay5_apply (hx : ∀ r c, xb (ix3 (0 : Fin 1) r c) = X (ix3 b r c)) (hg : ∀ c, g (ix2 (0 : Fin 1) c) = gam (ix1 c))
    (hb : ∀ c, bt (ix2 (0 : Fin 1) c) = bet (ix1 c)) (ha : ∀ i j, ab (ix3 (0 : Fin 1) i j) = adj (ix3 b i j))
    (hwr : ∀ h o, wr (ix2 h o) = wrel (ix2 h o)) (r : Fin 1024) (o : Fin 256) :
    k0_pay5 xb g bt ab wr (ix2 r o) = ∑ h : Fin 256, agg X adj gam bet b r h * wrel (ix2 h o) := by
  unfold k0_pay5
  refine (matmulW_apply _ _ r o).trans ?_
  refine Finset.sum_congr rfl fun h _ => ?_
  show matmul dot_S1024x1024_S1024x256_S1024x256_1_0_0_1_n_n none
      (truncf .bf16 (shapeCast S1024x1024 ab shapeCasts_S1x1024x1024_S1024x1024) bitsLt_bf16_f32) (k0_pay3 xb g bt)
      (constant (F := Ideal) S1024x256 .f32 0x00000000#32) (ix2 r h) * wr (ix2 h o) = _
  rw [matmulA_apply, hwr]
  refine congrArg (· * wrel (ix2 h o)) (Finset.sum_congr rfl fun j _ => ?_)
  show shapeCast S1024x1024 ab shapeCasts_S1x1024x1024_S1024x1024 (ix2 r j) * k0_pay3 xb g bt (ix2 j h) = _
  rw [shapeCast_1ab_ab_apply, ha, pay3_apply X gam bet b xb g bt hx hg hb]

/-- THE STORED BLOCK of batch item `b`, entry by entry, is the specification. -/
theorem stored_apply (hx : ∀ r c, xb (ix3 (0 : Fin 1) r c) = X (ix3 b r c)) (hg : ∀ c, g (ix2 (0 : Fin 1) c) = gam (ix1 c))
    (hb : ∀ c, bt (ix2 (0 : Fin 1) c) = bet (ix1 c)) (ha : ∀ i j, ab (ix3 (0 : Fin 1) i j) = adj (ix3 b i j))
    (hwr : ∀ h o, wr (ix2 h o) = wrel (ix2 h o)) (hwo : ∀ h o, wo (ix2 h o) = wroot (ix2 h o))
    (hbr : ∀ c, brb (ix2 (0 : Fin 1) c) = brel (ix1 c)) (u : Fin 1) (r : Fin 1024) (o : Fin 256) :
    k0_pay1 (k0_pay2 xb) (k0_pay3 xb g bt) (k0_pay4 wo) (k0_pay5 xb g bt ab wr) brb (ix3 u r o)
      = out X adj wrel brel wroot gam bet (ix3 b r o) := by
  unfold k0_pay1
  refine (shapeCast_ab_1ab_apply _ shapeCasts_S1024x256_S1x1024x256 u r o).trans ?_
  show k0_pay2 xb (ix2 r o)
      + max (k0_pay5 xb g bt ab wr (ix2 r o)
            + broadcastTo S1024x256 (shapeCast S1x256 brb shapeCasts_S1x256_S1x256) broadcasts_S1x256_S1024x256 (ix2 r o)
          + matmul dot_S1024x256_S256x256_S1024x256_1_0_0_1_n_n none (k0_pay3 xb g bt) (k0_pay4 wo)
              (constant (F := Ideal) S1024x256 .f32 0x00000000#32) (ix2 r o))
        (Ideal.ofBits .f32 0x00000000#32) = _
  rw [matmulW_apply, broadcastTo_1b_ab_apply, shapeCast_self, hbr, pay5_apply X adj wrel gam bet b xb ab wr g bt hx hg hb ha hwr,
    Ideal.ofBits_zero_f32, out_ix3]
  have e1 : k0_pay2 xb (ix2 r o) = X (ix3 b r o) :=
    (shapeCast_1ab_ab_apply xb shapeCasts_S1x1024x256_S1024x256 r o).trans (hx r o)
  have e2 : (∑ h : Fin 256, k0_pay3 xb g bt (ix2 r h) * k0_pay4 wo (ix2 h o)) = ∑ h : Fin 256, normed X gam bet b r h * wroot (ix2 h o) :=
    Finset.sum_congr rfl fun h _ => by
      rw [pay3_apply X gam bet b xb g bt hx hg hb]
      exact congrArg (normed X gam bet b r h * ·) (hwo h o)
  rw [e1, e2]
  rfl

end Stored

end Cert.GnnKernel

end
-- ==== Proof.KernelValue.lean ====
/-
  From blocks to the whole array: the kernel's run ends with its result array at the specification.

  The grid has one point per batch item. At point `t` the feature, adjacency and output windows hold
  slice `t` of their arrays (block index `(t, 0, 0)`, so entry `(0, r, c)` of the block is entry
  `(t, r, c)` of the array), while the two weight matrices and the three `[1,256]` rows are the same
  whole arrays at every point; the rows are the length-256 arguments with a unit axis put in front by
  the three reshapes that run before the launch. So what point `t` writes back is slice `t` of the
  specification, and the 32 slices cover the result array.
-/
import proofs.«162421_j82755429859956_1_alg».proof.Proof.Gen.KernelIdeal.Value
import proofs.«162421_j82755429859956_1_alg».proof.Proof.KernelBody
import Idealize.ShloMosaic.Lib.StableHlo.Run

set_option maxRecDepth 16384

noncomputable section

namespace Cert.GnnKernel

open Cert.KernelIdeal Cert.KernelIdeal.Gen Cert.GnnSpec Cert.GnnLayout
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The specification at the arguments as launched on core `c`. -/
def result (c : Dev nD) : S32x1024x256.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 32 points: the three batched windows sit at block `(t, 0, 0)`,
    the five shared ones at block `(0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val ∧ win0_7.index t (1 : Fin 3) = 0 ∧ win0_7.index t (2 : Fin 3) = 0) :=
  (by decide +kernel : ∀ t : Fin grid0.N, _)

/-- The batch item a grid point works on. -/
def item (t : Fin cfg0.N) : Fin 32 := ⟨t.val, Nat.lt_of_lt_of_eq t.isLt N_0⟩

/-! ## The three rows the host reshapes before the launch -/

theorem V_biasRow (c : Dev nD) :
    (V m c main_v0 : S1x256.Idx → EReal) = shapeCast S1x256 (m ((c : Thread nD τ).loc main_arg3)) shapeCasts_S256_S1x256 := by
  dsimp only [Gen.V, Gen.hostOps0]; after_results; rfl
theorem V_scaleRow (c : Dev nD) :
    (V m c main_v1 : S1x256.Idx → EReal) = shapeCast S1x256 (m ((c : Thread nD τ).loc main_arg5)) shapeCasts_S256_S1x256 := by
  dsimp only [Gen.V, Gen.hostOps0]; after_results; rfl
theorem V_shiftRow (c : Dev nD) :
    (V m c main_v2 : S1x256.Idx → EReal) = shapeCast S1x256 (m ((c : Thread nD τ).loc main_arg6)) shapeCasts_S256_S1x256 := by
  dsimp only [Gen.V, Gen.hostOps0]; after_results; rfl

/-! ## Each window's block at a point, read at coordinates -/

theorem featBlk (c : Dev nD) (t : Fin cfg0.N) (r : Fin 1024) (k : Fin 256) :
    iblk m c 0 t (ix3 (0 : Fin 1) r k) = m ((c : Thread nD τ).loc main_arg0) (ix3 (item t) r k) := by
  refine Eq.trans ?_ (congrFun (V_main_arg0 m c) (ix3 (item t) r k))
  show V m c main_arg0 (((cfg0.win 0).blk t).view.emb (ix3 (0 : Fin 1) r k)) = V m c main_arg0 (ix3 (item t) r k)
  obtain ⟨⟨e0, e1, e2⟩, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 256 + 1 * k.val = k.val; omega

theorem adjBlk (c : Dev nD) (t : Fin cfg0.N) (i j : Fin 1024) :
    iblk m c 1 t (ix3 (0 : Fin 1) i j) = m ((c : Thread nD τ).loc main_arg1) (ix3 (item t) i j) := by
  refine Eq.trans ?_ (congrFun (V_main_arg1 m c) (ix3 (item t) i j))
  show V m c main_arg1 (((cfg0.win 1).blk t).view.emb (ix3 (0 : Fin 1) i j)) = V m c main_arg1 (ix3 (item t) i j)
  obtain ⟨-, ⟨e0, e1, e2⟩, -⟩ := idx_facts t
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 1024 + 1 * j.val = j.val; omega

theorem wrelBlk (c : Dev nD) (t : Fin cfg0.N) (h o : Fin 256) :
    iblk m c 2 t (ix2 h o) = m ((c : Thread nD τ).loc main_arg2) (ix2 h o) := by
  refine Eq.trans ?_ (congrFun (V_main_arg2 m c) (ix2 h o))
  show V m c main_arg2 (((cfg0.win 2).blk t).view.emb (ix2 h o)) = V m c main_arg2 (ix2 h o)
  obtain ⟨-, -, ⟨e0, e1⟩, -⟩ := idx_facts t
  refine congrArg _ (funext fun a => Fin.ext ?_)
  match a with
  | ⟨0, _⟩ => show win0_2.index t (0 : Fin 2) * 256 + 1 * h.val = h.val; omega
  | ⟨1, _⟩ => show win0_2.index t (1 : Fin 2) * 256 + 1 * o.val = o.val; omega

theorem wrootBlk (c : Dev nD) (t : Fin cfg0.N) (h o : Fin 256) :
    iblk m c 4 t (ix2 h o) = m ((c : Thread nD τ).loc main_arg4) (ix2 h o) := by
  refine Eq.trans ?_ (congrFun (V_main_arg4 m c) (ix2 h o))
  show V m c main_arg4 (((cfg0.win 4).blk t).view.emb (ix2 h o)) = V m c main_arg4 (ix2 h o)
  obtain ⟨-, -, -, -, ⟨e0, e1⟩, -⟩ := idx_facts t
  refine congrArg _ (funext fun a => Fin.ext ?_)
  match a with
  | ⟨0, _⟩ => show win0_4.index t (0 : Fin 2) * 256 + 1 * h.val = h.val; omega
  | ⟨1, _⟩ => show win0_4.index t (1 : Fin 2) * 256 + 1 * o.val = o.val; omega

theorem biasBlk (c : Dev nD) (t : Fin cfg0.N) (o : Fin 256) :
    iblk m c 3 t (ix2 (0 : Fin 1) o) = m ((c : Thread nD τ).loc main_arg3) (ix1 o) := by
  have e : iblk m c 3 t (ix2 (0 : Fin 1) o) = V m c main_v0 (ix2 (0 : Fin 1) o) := by
    show V m c main_v0 (((cfg0.win 3).blk t).view.emb (ix2 (0 : Fin 1) o)) = V m c main_v0 (ix2 (0 : Fin 1) o)
    obtain ⟨-, -, -, ⟨e0, e1⟩, -⟩ := idx_facts t
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * o.val = o.val; omega
  rw [e, V_biasRow]
  exact shapeCast_a_1a_apply _ shapeCasts_S256_S1x256 (0 : Fin 1) o

theorem scaleBlk (c : Dev nD) (t : Fin cfg0.N) (o : Fin 256) :
    iblk m c 5 t (ix2 (0 : Fin 1) o) = m ((c : Thread nD τ).loc main_arg5) (ix1 o) := by
  have e : iblk m c 5 t (ix2 (0 : Fin 1) o) = V m c main_v1 (ix2 (0 : Fin 1) o) := by
    show V m c main_v1 (((cfg0.win 5).blk t).view.emb (ix2 (0 : Fin 1) o)) = V m c main_v1 (ix2 (0 : Fin 1) o)
    obtain ⟨-, -, -, -, -, ⟨e0, e1⟩, -⟩ := idx_facts t
    refine congrArg _ (funext fun a => Fin.ext ?_)
    match a with
    | ⟨0, _⟩ => show win0_5.index t (0 : Fin 2) * 1 + 1 * 0 = 0; omega
    | ⟨1, _⟩ => show win0_5.index t (1 : Fin 2) * 256 + 1 * o.val = o.val; omega
  rw [e, V_scaleRow]
  exact shapeCast_a_1a_apply _ shapeCasts_S256_S1x256 (0 : Fin 1) o

theorem shiftBlk (c : Dev nD) (t : Fin cfg0.N) (o : Fin 256) :
    iblk m c 6 t (ix2 (0 : Fin 1) o) = m ((c : Thread nD τ).loc main_arg6) (ix1 o) := by
  have e : iblk m c 6 t (ix2 (0 : Fin 1) o) = V m c main_v2 (ix2 (0 : Fin 1) o) := by
    show V m c main_v2 (((cfg0.win 6).blk t).view.emb (ix2 (0 : Fin 1) o)) = V m c main_v2 (ix2 (0 : Fin 1) o)
    obtain ⟨-, -, -, -, -, -, ⟨e0, e1⟩, -⟩ := idx_facts t
    refine congrArg _ (funext fun a => Fin.ext ?_)
    match a with
    | ⟨0, _⟩ => show win0_6.index t (0 : Fin 2) * 1 + 1 * 0 = 0; omega
    | ⟨1, _⟩ => show win0_6.index t (1 : Fin 2) * 256 + 1 * o.val = o.val; omega
  rw [e, V_shiftRow]
  exact shapeCast_a_1a_apply _ shapeCasts_S256_S1x256 (0 : Fin 1) o

/-- Where entry `(u, r, o)` of point `t`'s output block lands in the result array. -/
theorem outEmb (t : Fin cfg0.N) (u : Fin 1) (r : Fin 1024) (o : Fin 256) :
    ((cfg0.win 7).blk t).view.emb (ix3 u r o) = ix3 (item t) r o := by
  obtain ⟨-, -, -, -, -, -, -, ⟨e0, e1, e2⟩⟩ := idx_facts t
  have hu : u.val = 0 := by omega
  refine funext fun a => Fin.ext ?_
  match a with
  | ⟨0, _⟩ => show win0_7.index t (0 : Fin 3) * 1 + 1 * u.val = t.val; omega
  | ⟨1, _⟩ => show win0_7.index t (1 : Fin 3) * 1024 + 1 * r.val = r.val; omega
  | ⟨2, _⟩ => show win0_7.index t (2 : Fin 3) * 256 + 1 * o.val = o.val; omega

/-! ## What a point writes back, the cover, the array -/

/-- WHAT POINT `t` WRITES BACK is slice `t` of the specification. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zeros3]
  simp only [View.ld_unit_zero (S := S1x1024x256) zeros3, View.ld_unit_zero (S := S1x1024x1024) zeros3,
    View.ld_unit_zero (S := S256x256) zeros2, View.ld_unit_zero (S := S1x256) zeros2]
  funext j
  obtain ⟨u, r, o, rfl⟩ : ∃ (u : Fin 1) (r : Fin 1024) (o : Fin 256), j = ix3 u r o := ⟨j 0, j 1, j 2, eq_ix3 j⟩
  show k0_pay1 (k0_pay2 (iblk m c 0 t)) (k0_pay3 (iblk m c 0 t) (iblk m c 5 t) (iblk m c 6 t)) (k0_pay4 (iblk m c 4 t))
      (k0_pay5 (iblk m c 0 t) (iblk m c 5 t) (iblk m c 6 t) (iblk m c 1 t) (iblk m c 2 t)) (iblk m c 3 t) (ix3 u r o)
    = result m c (((cfg0.win 7).blk t).view.emb (ix3 u r o))
  rw [outEmb t u r o]
  exact stored_apply (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (item t)
    (iblk m c 0 t) (iblk m c 1 t) (iblk m c 2 t) (iblk m c 3 t) (iblk m c 4 t) (iblk m c 5 t) (iblk m c 6 t)
    (featBlk m c t) (scaleBlk m c t) (shiftBlk m c t) (adjBlk m c t) (wrelBlk m c t) (wrootBlk m c t) (biasBlk m c t) u r o

/-- An index of the result array is in point `t`'s block iff each coordinate is in the block's range. -/
theorem mem_outBlk (t : Fin cfg0.N) (i : S32x1024x256.Idx) :
    i ∈ ((cfg0.win 7).blk t).view.set ↔ ∀ a : Fin 3, win0_7.index t a * S1x1024x256.size a ≤ (i a).val ∧ (i a).val < win0_7.index t a * S1x1024x256.size a + S1x1024x256.size a := by
  show i ∈ ((View.whole main_v3).slice (win0_7.rect t)).set ↔ _
  rw [View.set_slice_whole, Rect.mem_set_unit]
  exact Iff.rfl

/-- Every entry of the result array is in the block of the point of its batch item. -/
theorem covered (i : S32x1024x256.Idx) :
    ∃ t : Fin cfg0.N, (cfg0.win 7).flush t = true ∧ i ∈ ((cfg0.win 7).blk t).view.set := by
  have h0 : (i 0).val < 32 := (i 0).isLt
  have h1 : (i 1).val < 1024 := (i 1).isLt
  have h2 : (i 2).val < 256 := (i 2).isLt
  let t : Fin cfg0.N := ⟨(i 0).val, Nat.lt_of_lt_of_eq h0 N_0.symm⟩
  have ht : t.val = (i 0).val := rfl
  refine ⟨t, flush0_7 t, ?_⟩
  rw [mem_outBlk]
  obtain ⟨-, -, -, -, -, -, -, ⟨e0, e1, e2⟩⟩ := idx_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 256 ≤ (i 2).val ∧ (i 2).val < win0_7.index t (2 : Fin 3) * 256 + 256; omega

/-- THE RESULT ARRAY after the run is the specification. -/
theorem final (c : Dev nD) : (dats m 0 c).arrAt 7 cfg0.N = result m c :=
  (dats m 0 c).arrAt_eq_of_cover 7 (result m c) (fun t _ => flushed_eq m c t) covered

/-- The kernel's run, with the result array at the specification and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.GnnKernel

end
-- ==== Proof.RefValue.lean ====
/-
  The reference, read stage by stage at an index, is the specification.

  Each stage of the reference's run is read at coordinates (b, r, c) from its operands at coordinates:
  a keep-dims mean is the row's sum (the reduction's initial value is the zero word, so it drops out)
  over the word of 256; the broadcasts put a row's statistic, or a feature's scale, shift and bias,
  back on every entry; the batched contraction sums over the neighbours `j` of one batch item, the
  two feature contractions over the 256 input features. Nothing here needs the entries finite.
-/
import proofs.«162421_j82755429859956_1_alg».proof.Proof.Gen.ReferenceIdeal.Read
import proofs.«162421_j82755429859956_1_alg».proof.Proof.Spec

noncomputable section

namespace Cert.GnnRef

open Cert.ReferenceIdeal Cert.ReferenceIdeal.Gen Cert.ReferenceIdeal.Read Cert.GnnSpec
open Idealize.ShloMosaic Idealize.ShloMosaic.ValueIdx

/-! ## The composed index maps, at coordinates -/

theorem row_of_col (b : Fin 32) (r : Fin 1024) (u : Fin 1) : idx_main_v1 (ix3 b r u) = ix2 b r := by
  funext a; match a with | ⟨0, _⟩ => rfl | ⟨1, _⟩ => rfl
theorem row_of_col' (b : Fin 32) (r : Fin 1024) (u : Fin 1) : idx_main_v8 (ix3 b r u) = ix2 b r := by
  funext a; match a with | ⟨0, _⟩ => rfl | ⟨1, _⟩ => rfl
theorem entry_of_row (b : Fin 32) (r : Fin 1024) (k : Fin 256) : idx_main_v0 (ix2 b r) k = ix3 b r k := by
  funext a; match a with | ⟨0, _⟩ => rfl | ⟨1, _⟩ => rfl | ⟨2, _⟩ => rfl
theorem entry_of_row' (b : Fin 32) (r : Fin 1024) (k : Fin 256) : idx_main_v7 (ix2 b r) k = ix3 b r k := by
  funext a; match a with | ⟨0, _⟩ => rfl | ⟨1, _⟩ => rfl | ⟨2, _⟩ => rfl
theorem col_of_entry4 (b : Fin 32) (r : Fin 1024) (c : Fin 256) : idx_main_v4 (ix3 b r c) = ix3 b r (0 : Fin 1) := by
  funext a; match a with | ⟨0, _⟩ => rfl | ⟨1, _⟩ => rfl | ⟨2, _⟩ => rfl
theorem col_of_entry11 (b : Fin 32) (r : Fin 1024) (c : Fin 256) : idx_main_v11 (ix3 b r c) = ix3 b r (0 : Fin 1) := by
  funext a; match a with | ⟨0, _⟩ => rfl | ⟨1, _⟩ => rfl | ⟨2, _⟩ => rfl
theorem col_of_entry16 (b : Fin 32) (r : Fin 1024) (c : Fin 256) : idx_main_v16 (ix3 b r c) = ix3 b r (0 : Fin 1) := by
  funext a; match a with | ⟨0, _⟩ => rfl | ⟨1, _⟩ => rfl | ⟨2, _⟩ => rfl
theorem feat_of_entry19 (b : Fin 32) (r : Fin 1024) (c : Fin 256) : idx_main_v19 (ix3 b r c) = ix3 (0 : Fin 1) (0 : Fin 1) c := by
  funext a; match a with | ⟨0, _⟩ => rfl | ⟨1, _⟩ => rfl | ⟨2, _⟩ => rfl
theorem feat_of_entry22 (b : Fin 32) (r : Fin 1024) (c : Fin 256) : idx_main_v22 (ix3 b r c) = ix3 (0 : Fin 1) (0 : Fin 1) c := by
  funext a; match a with | ⟨0, _⟩ => rfl | ⟨1, _⟩ => rfl | ⟨2, _⟩ => rfl
theorem feat_of_entry27 (b : Fin 32) (r : Fin 1024) (c : Fin 256) : idx_main_v27 (ix3 b r c) = ix3 (0 : Fin 1) (0 : Fin 1) c := by
  funext a; match a with | ⟨0, _⟩ => rfl | ⟨1, _⟩ => rfl | ⟨2, _⟩ => rfl
theorem vec_of_feat18 (u v : Fin 1) (c : Fin 256) : idx_main_v18 (ix3 u v c) = ix1 c := by
  funext a; match a with | ⟨0, _⟩ => rfl
theorem vec_of_feat21 (u v : Fin 1) (c : Fin 256) : idx_main_v21 (ix3 u v c) = ix1 c := by
  funext a; match a with | ⟨0, _⟩ => rfl
theorem vec_of_feat26 (u v : Fin 1) (c : Fin 256) : idx_main_v26 (ix3 u v c) = ix1 c := by
  funext a; match a with | ⟨0, _⟩ => rfl
theorem adj_entry (b : Fin 32) (i : Fin 1024) (c : Fin 256) (k : Fin 1024) : lidx_main_v24 (ix3 b i c) k = ix3 b i k := by
  funext a; match a with | ⟨0, _⟩ => rfl | ⟨1, _⟩ => rfl | ⟨2, _⟩ => rfl
theorem nbr_entry (b : Fin 32) (i : Fin 1024) (c : Fin 256) (k : Fin 1024) : ridx_main_v24 (ix3 b i c) k = ix3 b k c := by
  funext a; match a with | ⟨0, _⟩ => rfl | ⟨1, _⟩ => rfl | ⟨2, _⟩ => rfl
theorem feat_in25 (b : Fin 32) (r : Fin 1024) (o : Fin 256) (k : Fin 256) : lidx_main_v25 (ix3 b r o) k = ix3 b r k := by
  funext a; match a with | ⟨0, _⟩ => rfl | ⟨1, _⟩ => rfl | ⟨2, _⟩ => rfl
theorem weight25 (b : Fin 32) (r : Fin 1024) (o : Fin 256) (k : Fin 256) : ridx_main_v25 (ix3 b r o) k = ix2 k o := by
  funext a; match a with | ⟨0, _⟩ => rfl | ⟨1, _⟩ => rfl
theorem feat_in29 (b : Fin 32) (r : Fin 1024) (o : Fin 256) (k : Fin 256) : lidx_main_v29 (ix3 b r o) k = ix3 b r k := by
  funext a; match a with | ⟨0, _⟩ => rfl | ⟨1, _⟩ => rfl | ⟨2, _⟩ => rfl
theorem weight29 (b : Fin 32) (r : Fin 1024) (o : Fin 256) (k : Fin 256) : ridx_main_v29 (ix3 b r o) k = ix2 k o := by
  funext a; match a with | ⟨0, _⟩ => rfl | ⟨1, _⟩ => rfl

/-! ## The stages -/

variable (x0 : (⟨S32x1024x256, .f32⟩ : BufTy).Contents (Elt Ideal)) (x1 : (⟨S32x1024x1024, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 x6 : (⟨S256, .f32⟩ : BufTy).Contents (Elt Ideal))

/-- The keep-dims mean of a row is the row's sum over 256. -/
theorem mean_stage (b : Fin 32) (r : Fin 1024) (u : Fin 1) :
    val_main_v3 (F := Ideal) x0 (ix3 b r u) = mean x0 b r := by
  rw [val_main_v3_apply, val_main_v1_apply, row_of_col, val_main_v0_apply, val_main_v2_apply]
  simp only [entry_of_row]
  show Ideal.div (Ideal.ofBits .f32 0x00000000#32 + ∑ k : Fin 256, x0 (ix3 b r k)) (Ideal.ofBits .f32 0x43800000#32) = _
  rw [Ideal.ofBits_zero_f32, zero_add]
  rfl

/-- Both subtractions of the broadcast mean give the centred entry. -/
theorem cent_stage (b : Fin 32) (r : Fin 1024) (c : Fin 256) :
    val_main_v5 (F := Ideal) x0 (ix3 b r c) = cent x0 b r c := by
  rw [val_main_v5_apply, val_main_v4_apply, col_of_entry4, mean_stage]
  rfl
theorem cent_stage' (b : Fin 32) (r : Fin 1024) (c : Fin 256) :
    val_main_v12 (F := Ideal) x0 (ix3 b r c) = cent x0 b r c := by
  rw [val_main_v12_apply, val_main_v11_apply, col_of_entry11, mean_stage]
  rfl

/-- The keep-dims mean of the centred squares is the row's variance. -/
theorem var_stage (b : Fin 32) (r : Fin 1024) (u : Fin 1) :
    val_main_v10 (F := Ideal) x0 (ix3 b r u) = var x0 b r := by
  rw [val_main_v10_apply, val_main_v8_apply, row_of_col', val_main_v7_apply, val_main_v9_apply]
  simp only [entry_of_row', val_main_v6_apply, cent_stage]
  show Ideal.div (Ideal.ofBits .f32 0x00000000#32 + ∑ k : Fin 256, cent x0 b r k * cent x0 b r k) (Ideal.ofBits .f32 0x43800000#32) = _
  rw [Ideal.ofBits_zero_f32, zero_add]
  rfl

/-- The layer norm's output entry. -/
theorem normed_stage (b : Fin 32) (r : Fin 1024) (c : Fin 256) :
    val_main_v23 (F := Ideal) x0 x5 x6 (ix3 b r c) = normed x0 x5 x6 b r c := by
  rw [val_main_v23_apply, val_main_v20_apply, val_main_v17_apply, cent_stage', val_main_v16_apply, col_of_entry16,
    val_main_v15_apply, val_main_v14_apply, var_stage, val_main_v13_apply,
    val_main_v19_apply, feat_of_entry19, val_main_v18_apply, vec_of_feat18,
    val_main_v22_apply, feat_of_entry22, val_main_v21_apply, vec_of_feat21]
  rfl

/-- The batched contraction sums a node's neighbours inside its own batch item. -/
theorem agg_stage (b : Fin 32) (i : Fin 1024) (c : Fin 256) :
    val_main_v24 (F := Ideal) x0 x1 x5 x6 (ix3 b i c) = agg x0 x1 x5 x6 b i c := by
  rw [val_main_v24_apply]
  simp only [adj_entry, nbr_entry, normed_stage]
  rfl

/-- The graph convolution before the rectifier. -/
theorem conv_stage (b : Fin 32) (k : Fin 1024) (o : Fin 256) :
    val_main_v30 (F := Ideal) x0 x1 x2 x3 x4 x5 x6 (ix3 b k o) = conv x0 x1 x2 x3 x4 x5 x6 b k o := by
  rw [val_main_v30_apply, val_main_v28_apply, val_main_v25_apply, val_main_v29_apply, val_main_v27_apply, feat_of_entry27,
    val_main_v26_apply, vec_of_feat26]
  simp only [feat_in25, weight25, feat_in29, weight29, agg_stage, normed_stage]
  rfl

/-- The reference's result, entry by entry, is the specification. -/
theorem out_stage (b : Fin 32) (k : Fin 1024) (o : Fin 256) :
    val_main_v32 (F := Ideal) x0 x1 x2 x3 x4 x5 x6 (ix3 b k o) = out x0 x1 x2 x3 x4 x5 x6 (ix3 b k o) := by
  rw [val_main_v32_apply, val_main_v31_apply, conv_stage, val_main_call0_v0_apply, out_ix3]
  show x0 (ix3 b k o) + max (conv x0 x1 x2 x3 x4 x5 x6 b k o) (Ideal.ofBits .f32 0x00000000#32) = _
  rw [Ideal.ofBits_zero_f32]

/-- The reference's result array is the specification. -/
theorem reference_eq : val_main_v32 (F := Ideal) x0 x1 x2 x3 x4 x5 x6 = out x0 x1 x2 x3 x4 x5 x6 := by
  funext i
  obtain ⟨b, k, o, rfl⟩ : ∃ (b : Fin 32) (k : Fin 1024) (o : Fin 256), i = ix3 b k o := ⟨i 0, i 1, i 2, eq_ix3 i⟩
  exact out_stage x0 x1 x2 x3 x4 x5 x6 b k o

end Cert.GnnRef

end
-- ==== Proof.lean ====
/-
  A dense graph-convolution block with a pre-norm residual, fused into one kernel with one grid point per
  batch item, against its plain array reference: over the extended reals both compute

      out b k o = x b k o + max (conv b k o) 0,
      conv b k o = (∑ h, agg b k h · W_rel h o) + b_rel o + ∑ h, normed b k h · W_root h o,
      agg b i c = ∑ j, adj b i j · normed b j c,
      normed = the layer norm of x over its last axis (row mean and variance over 256 features, ε inside the
               reciprocal square root), scaled by γ and shifted by β.

  The kernel narrows the matrix unit's operands to bf16 and the reference does not: over the extended reals a
  change of format is the identity, and both the matrix unit's product into a zero accumulator and the
  reference's contraction are the same sum of products. The two sides apply the same operations in the same
  order to the same entries, so no step needs the entries finite; the two float literals (256 and ε) are the
  same words on both sides and are never evaluated.

  Proof/Spec.lean states the function; Proof/RefValue.lean reads the reference's run at an index and finds it;
  Proof/KernelBody.lean reads the kernel's body on one batch item's blocks at an index and finds it;
  Proof/KernelValue.lean goes from the 32 blocks to the whole result array. The three frame claims are the
  generated frame runs (the reference's: its run with the result dropped), and the idealization rewrote
  nothing, so `preserves` has nothing to state.
-/
import proofs.«162421_j82755429859956_1_alg».proof.Defs
import proofs.«162421_j82755429859956_1_alg».proof.Proof.Gen.Kernel
import proofs.«162421_j82755429859956_1_alg».proof.Proof.Gen.Kernel.Skeleton
import proofs.«162421_j82755429859956_1_alg».proof.Proof.Gen.Kernel.Launch
import proofs.«162421_j82755429859956_1_alg».proof.Proof.Gen.Kernel.Points
import proofs.«162421_j82755429859956_1_alg».proof.Proof.Gen.Kernel.Frame
import proofs.«162421_j82755429859956_1_alg».proof.Proof.Gen.KernelIdeal
import proofs.«162421_j82755429859956_1_alg».proof.Proof.Gen.KernelIdeal.Skeleton
import proofs.«162421_j82755429859956_1_alg».proof.Proof.Gen.KernelIdeal.Launch
import proofs.«162421_j82755429859956_1_alg».proof.Proof.Gen.KernelIdeal.Points
import proofs.«162421_j82755429859956_1_alg».proof.Proof.Gen.KernelIdeal.Frame
import proofs.«162421_j82755429859956_1_alg».proof.Proof.Gen.ReferenceIdeal
import proofs.«162421_j82755429859956_1_alg».proof.Proof.Gen.Pre_finite_inputs
import proofs.«162421_j82755429859956_1_alg».proof.Proof.Gen.KernelIdeal.Value
import proofs.«162421_j82755429859956_1_alg».proof.Proof.Gen.ReferenceIdeal.Run
import proofs.«162421_j82755429859956_1_alg».proof.Proof.Gen.ReferenceIdeal.Read
import proofs.«162421_j82755429859956_1_alg».proof.Proof.KernelValue
import proofs.«162421_j82755429859956_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments, the kernel's result array and the reference's are both the
    specification `out` of those arguments. -/
theorem algebraic : Cert.algebraic_KernelIdeal_ReferenceIdeal := by
  intro m ρ m' ρ' _ hagree
  refine ⟨fun c => Cert.GnnKernel.result m c, Cert.GnnKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.GnnRef.reference_eq]
  obtain ⟨h0, h1, h2, h3, h4, h5, h6⟩ := hagree c
  rw [h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
